-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  main_v8
-- ==== Kernel.lean ====
abbrev S2x8x2048x64 : Shape := ⟨4, ![2, 8, 2048, 64]⟩
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S2x8x2048x2048 : Shape := ⟨4, ![2, 8, 2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .hbm, ⟨5, _⟩ => ⟨S2x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x2048, .f32⟩
  | .local _ .vmem, ⟨5, _⟩ => ⟨S1x512x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x8x2048x64_S16x2048x64 : S2x8x2048x64.ShapeCasts S16x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S16x2048x2048_S2x8x2048x2048 : S16x2048x2048.ShapeCasts S2x8x2048x2048
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .f32 = 32 ∨ (Rect.block (s := S16x2048x2048) S1x512x2048.size (cc0_transform_2 i) (hinb0_2 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S2x8x2048x2048, .f32⟩
  | .hbm, ⟨7, _⟩ => ⟨S2x8x2048x2048, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf

class Facts : Prop extends Facts₀ where

variable [Facts]
-- ==== Proof.Spec.lean ====
/-
  The phase coherence of two arrays of phases, as one function of the arrays, index by index, over the extended reals.
  For a query row `q` and a key row `k` of one head, each a family of 64 phases, the pair's term is
    (Σ_d cos q_d · cos k_d  +  Σ_d sin q_d · sin k_d) · 2⁻⁶,
  the mean over the 64 harmonics of cos (q_d − k_d) written through the addition formula. `coherence4` reads the rows off
  arrays indexed (batch, head, position, harmonic); `coherence3` off arrays whose batch and head axes are folded into one
  axis of 16. Folding the operands, taking `coherence3` and unfolding the result is `coherence4`: a row-major reshape moves
  (b, h) to 8·b + h and back, and touches neither the position nor the harmonic.
-/
import Idealize.ShloMosaic.PureOps.Ideal
import Idealize.ShloMosaic.Lib.ValueIdx
import Idealize.ShloMosaic.Lib.Pipeline.Value

noncomputable section

namespace Cert.Coherence

open Idealize.ShloMosaic Idealize.ShloMosaic.ValueIdx

/-- Phases indexed (batch, head, position, harmonic). -/
abbrev Ph4 : Shape := ⟨4, ![2, 8, 2048, 64]⟩
/-- The same with batch and head folded. -/
abbrev Ph3 : Shape := ⟨3, ![16, 2048, 64]⟩
/-- Coherences indexed (batch·head, query position, key position). -/
abbrev Co3 : Shape := ⟨3, ![16, 2048, 2048]⟩
/-- Coherences indexed (batch, head, query position, key position). -/
abbrev Co4 : Shape := ⟨4, ![2, 8, 2048, 2048]⟩

/-- One pair of rows: the cosine products summed, plus the sine products summed, scaled by `2⁻⁶`. -/
def pairTerm (qrow krow : Fin 64 → EReal) : EReal :=
  ((∑ d : Fin 64, Ideal.cos (qrow d) * Ideal.cos (krow d)) + ∑ d : Fin 64, Ideal.sin (qrow d) * Ideal.sin (krow d))
    * Ideal.ofBits .f32 0x3C800000#32

/-- Entry (b, h, q, k): query row (b, h, q) against key row (b, h, k). -/
def coherence4 (Q K : Ph4.Idx → EReal) : Co4.Idx → EReal := fun i =>
  pairTerm (fun d => Q (ix4 (i 0) (i 1) (i 2) d)) (fun d => K (ix4 (i 0) (i 1) (i 3) d))

/-- Entry (g, q, k) over folded arrays: query row (g, q) against key row (g, k). -/
def coherence3 (Q K : Ph3.Idx → EReal) : Co3.Idx → EReal := fun j =>
  pairTerm (fun d => Q (ix3 (j 0) (j 1) d)) (fun d => K (ix3 (j 0) (j 2) d))

/-- A folded array of phases read at (8·b + h, p, d) is the array at (b, h, p, d). -/
theorem fold_apply (X : Ph4.Idx → EReal) (hin : Ph4.ShapeCasts Ph3) (b : Fin 2) (h : Fin 8) (p : Fin 2048) (d : Fin 64)
    (g : Fin 16) (hg : g.val = 8 * b.val + h.val) :
    shapeCast Ph3 X hin (ix3 g p d) = X (ix4 b h p d) := by
  refine shapeCast_apply X hin (ix3 g p d) (ix4 b h p d) ?_
  rw [Shape.rowMajor_val_three, Shape.rowMajor_val_four]
  show ((b.val * 8 + h.val) * 2048 + p.val) * 64 + d.val = (g.val * 2048 + p.val) * 64 + d.val
  rw [hg]; ring

/-- Fold the operands, take the folded coherence, unfold the result: the coherence of the unfolded arrays. -/
theorem unfold_coherence3 (Q K : Ph4.Idx → EReal) (hin : Ph4.ShapeCasts Ph3) (hout : Co3.ShapeCasts Co4) :
    shapeCast Co4 (coherence3 (shapeCast Ph3 Q hin) (shapeCast Ph3 K hin)) hout = coherence4 Q K := by
  funext i
  have h0 : (i 0).val < 2 := (i 0).isLt
  have h1 : (i 1).val < 8 := (i 1).isLt
  have hg : 8 * (i 0).val + (i 1).val < 16 := by omega
  rw [shapeCast_apply _ hout i (ix3 (⟨8 * (i 0).val + (i 1).val, hg⟩ : Fin 16) (i 2) (i 3)) (by
    rw [Shape.rowMajor_val_three, Shape.rowMajor_val_four]
    show ((8 * (i 0).val + (i 1).val) * 2048 + (i 2).val) * 2048 + (i 3).val
      = (((i 0).val * 8 + (i 1).val) * 2048 + (i 2).val) * 2048 + (i 3).val
    ring)]
  unfold coherence3 coherence4
  congr 1
  · funext d; exact fold_apply Q hin (i 0) (i 1) (i 2) d _ rfl
  · funext d; exact fold_apply K hin (i 0) (i 1) (i 3) d _ rfl

end Cert.Coherence

end
-- ==== Proof.Literals.lean ====
/-
  The three float words the two programs spell, read as extended reals: the kernel's scale `2⁻⁶` is the rational
  `1/64` exactly (a power of two, so the binary value IS the fraction), the reference's divisors are `64` and `1`.
  A quotient by a nonzero real is the product with its reciprocal at every extended real, the infinities included,
  so dividing by `64` and then by `1` is multiplying by `1/64`: the one law that joins the two programs' scalings.
-/
import Idealize.ShloMosaic.PureOps.Ideal

noncomputable section

namespace Cert.Coherence.Literals

open Idealize.ShloMosaic

/-- `0x3C800000` is `2⁻⁶ = 1/64`. -/
theorem ofBits_sixtyFourth : Ideal.ofBits .f32 0x3C800000#32 = ((1 / 64 : ℝ) : EReal) := by
  simp [Ideal.ofBits, Ideal.ieee, -EReal.coe_mul]; norm_num

/-- `0x42800000` is `64`. -/
theorem ofBits_sixtyFour : Ideal.ofBits .f32 0x42800000#32 = ((64 : ℝ) : EReal) := by
  simp [Ideal.ofBits, Ideal.ieee, -EReal.coe_mul]; norm_num

/-- `0x3F800000` is `1`. -/
theorem ofBits_one : Ideal.ofBits .f32 0x3F800000#32 = ((1 : ℝ) : EReal) := by
  simp [Ideal.ofBits, Ideal.ieee, -EReal.coe_mul]; norm_num

/-- The reference's two quotients are the kernel's one product, on every extended real. -/
theorem div_div_eq_mul (x : EReal) :
    Ideal.div (Ideal.div x (Ideal.ofBits .f32 0x42800000#32)) (Ideal.ofBits .f32 0x3F800000#32)
      = x * Ideal.ofBits .f32 0x3C800000#32 := by
  rw [ofBits_sixtyFour, ofBits_one, ofBits_sixtyFourth, Ideal.div_coe (by norm_num : (64 : ℝ) ≠ 0),
    Ideal.div_coe (by norm_num : (1 : ℝ) ≠ 0)]
  rw [show ((1 / 1 : ℝ) : EReal) = 1 by norm_num, mul_one]

end Cert.Coherence.Literals

end
-- ==== Proof.RefSide.lean ====
/-
  The reference program's result is the coherence of its two argument arrays. Its stages, outermost first: a quotient
  by the splat of `1`, of a quotient by the splat of `64`, of the sum of two batched products contracted over the
  harmonic axis — entry (b, h, q, k) of each the sum over `d` of the left operand at (b, h, q, d) times the right
  at (b, h, k, d) —, the operands the cosines and the sines of the arguments. The two quotients are the product with
  `2⁻⁶` (Literals), which is the pair term of the specification.
-/
import proofs.«118761_j90632399880438_1_alg».proof.Proof.Gen.ReferenceIdeal.Read
import proofs.«118761_j90632399880438_1_alg».proof.Proof.Spec
import proofs.«118761_j90632399880438_1_alg».proof.Proof.Literals

noncomputable section

namespace Cert.Coherence.RefSide

open Cert.ReferenceIdeal Cert.ReferenceIdeal.Read Idealize.ShloMosaic Idealize.ShloMosaic.ValueIdx

/-- The left operand's index in the cosine product: the query row's harmonic `k`. -/
theorem lidx4_eq (i : S2x8x2048x2048.Idx) (k : Fin 64) : lidx_main_v4 i k = ix4 (i 0) (i 1) (i 2) k :=
  funext fun a => Fin.ext (by match a with | ⟨0, _⟩ => rfl | ⟨1, _⟩ => rfl | ⟨2, _⟩ => rfl | ⟨3, _⟩ => rfl)
/-- The right operand's: the key row's harmonic `k`. -/
theorem ridx4_eq (i : S2x8x2048x2048.Idx) (k : Fin 64) : ridx_main_v4 i k = ix4 (i 0) (i 1) (i 3) k :=
  funext fun a => Fin.ext (by match a with | ⟨0, _⟩ => rfl | ⟨1, _⟩ => rfl | ⟨2, _⟩ => rfl | ⟨3, _⟩ => rfl)
/-- The same two for the sine product. -/
theorem lidx5_eq (i : S2x8x2048x2048.Idx) (k : Fin 64) : lidx_main_v5 i k = ix4 (i 0) (i 1) (i 2) k :=
  funext fun a => Fin.ext (by match a with | ⟨0, _⟩ => rfl | ⟨1, _⟩ => rfl | ⟨2, _⟩ => rfl | ⟨3, _⟩ => rfl)
theorem ridx5_eq (i : S2x8x2048x2048.Idx) (k : Fin 64) : ridx_main_v5 i k = ix4 (i 0) (i 1) (i 3) k :=
  funext fun a => Fin.ext (by match a with | ⟨0, _⟩ => rfl | ⟨1, _⟩ => rfl | ⟨2, _⟩ => rfl | ⟨3, _⟩ => rfl)

/-- The reference's last stage, as a function of the two arguments, is their coherence. -/
theorem reference_eq (x0 x1 : (⟨S2x8x2048x64, .f32⟩ : BufTy).Contents (Elt Ideal)) :
    val_main_v10 (F := Ideal) x0 x1 = coherence4 x0 x1 := by
  funext i
  rw [val_main_v10_apply, val_main_v8_apply, val_main_v6_apply, val_main_v4_apply, val_main_v5_apply,
    val_main_v7_apply, val_main_v9_apply, val_main_cst_apply, val_main_cst_0_apply]
  simp only [val_main_v0_apply, val_main_v1_apply, val_main_v2_apply, val_main_v3_apply, lidx4_eq, ridx4_eq, lidx5_eq,
    ridx5_eq, Ideal.hostUnary_cos_def, Ideal.hostUnary_sin_def, Ideal.hostDivf_def, Ideal.addf_def, Ideal.ofBits_def]
  rw [Literals.div_div_eq_mul]
  rfl

end Cert.Coherence.RefSide

end
-- ==== Proof.BodyValue.lean ====
/-
  What one grid point's body stores, read at an index. The body loads a [1,512,64] block of query phases and a
  [1,2048,64] block of key phases, drops the leading unit axis, takes cosines and sines (the narrowing to bf16 is the
  identity on the extended reals), multiplies cos q by (cos k)ᵀ and sin q by (sin k)ᵀ on the matrix unit into zero
  accumulators — each product's entry (p, r) the sum over the harmonic `d` of the left operand at (p, d) times the right
  at (r, d): both operands are contracted along their SECOND axis —, adds the two, scales by `2⁻⁶` and puts the unit
  axis back. So entry (0, p, r) of what it stores is the pair term of query row `p` and key row `r` of the two blocks.
-/
import proofs.«118761_j90632399880438_1_alg».proof.Proof.Gen.KernelIdeal.Skeleton
import proofs.«118761_j90632399880438_1_alg».proof.Proof.Spec
import Idealize.ShloMosaic.Lib.ValueIdx
import Idealize.ShloMosaic.Lib.Pipeline.Value
import Idealize.ShloMosaic.PureOps.Ideal.Laws

noncomputable section

namespace Cert.Coherence.Body

open Cert.KernelIdeal Cert.KernelIdeal.Gen Idealize.ShloMosaic Idealize.ShloMosaic.ValueIdx

/-! ## The product's operand indices, axis by axis -/

/-- The left operand's row is the output's row. -/
theorem lhs_row (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- Its column is the contracted harmonic. -/
theorem lhs_col (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- The right operand's row is the output's COLUMN. -/
theorem rhs_row (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- Its column is the contracted harmonic. -/
theorem rhs_col (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- A · Bᵀ into a zero accumulator, entry (p, r): the sum over the harmonic of A (p, d) · B (r, d). -/
theorem matmul_rows (A : FVec Ideal S512x64 .bf16) (B : FVec Ideal S2048x64 .bf16) (p : Fin 512) (r : Fin 2048) :
    matmul dot_S512x64_S2048x64_S512x2048_1_1_0_0_n_n none A B (constant (F := Ideal) S512x2048 .f32 0x00000000#32) (ix2 p r)
      = ∑ d : Fin 64, A (ix2 p d) * B (ix2 r d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p r) ((contrEquiv1 dot_S512x64_S2048x64_S512x2048_1_1_0_0_n_n 64 rfl rfl).symm k) = ix2 p k := funext fun a => Fin.ext (by
    match a with
    | ⟨0, _⟩ => exact lhs_row _ _
    | ⟨1, _⟩ => exact (lhs_col _ _).trans hk)
  have er : dot_S512x64_S2048x64_S512x2048_1_1_0_0_n_n.rhsIdx (ix2 p r) ((contrEquiv1 dot_S512x64_S2048x64_S512x2048_1_1_0_0_n_n 64 rfl rfl).symm k) = ix2 r k := funext fun a => Fin.ext (by
    match a with
    | ⟨0, _⟩ => exact rhs_row _ _
    | ⟨1, _⟩ => exact (rhs_col _ _).trans hk)
  rw [el, er]

/-! ## The leading unit axis -/

/-- A query block without its unit axis, at (p, d), is the block at (0, p, d). -/
theorem drop_q (x : S1x512x64.Idx → EReal) (h : S1x512x64.ShapeCasts S512x64) (p : Fin 512) (d : Fin 64) :
    shapeCast S512x64 x h (ix2 p d) = x (ix3 0 p d) := by
  refine shapeCast_apply x h (ix2 p d) (ix3 0 p d) ?_
  rw [Shape.rowMajor_val_three, Shape.rowMajor_val_two]
  show (0 * 512 + p.val) * 64 + d.val = p.val * 64 + d.val
  omega
/-- A key block without its unit axis, at (r, d), is the block at (0, r, d). -/
theorem drop_k (x : S1x2048x64.Idx → EReal) (h : S1x2048x64.ShapeCasts S2048x64) (r : Fin 2048) (d : Fin 64) :
    shapeCast S2048x64 x h (ix2 r d) = x (ix3 0 r d) := by
  refine shapeCast_apply x h (ix2 r d) (ix3 0 r d) ?_
  rw [Shape.rowMajor_val_three, Shape.rowMajor_val_two]
  show (0 * 2048 + r.val) * 64 + d.val = r.val * 64 + d.val
  omega

/-! ## The payload -/

/-- Entry (z, p, r) of what the body stores: the pair term of query row `p` of the first block and key row `r` of
    the second. -/
theorem pay_apply (x0 : Vec Ideal S1x512x64 .f32) (x1 : Vec Ideal S1x2048x64 .f32) (z : Fin 1) (p : Fin 512) (r : Fin 2048) :
    k0_pay1 (F := Ideal) x0 x1 (ix3 z p r) = pairTerm (fun d => x0 (ix3 0 p d)) (fun d => x1 (ix3 0 r d)) := by
  unfold k0_pay1
  refine (shapeCast_addUnit_apply (n := 2) ![512, 2048] _ _ (ix3 z p r)).trans ?_
  have e : (fun a : Fin 2 => (ix3 z p r : S1x512x2048.Idx) a.succ) = ix2 p r := funext fun a => by
    match a with
    | ⟨0, _⟩ => rfl
    | ⟨1, _⟩ => rfl
  rw [e]
  simp only [mulf_apply, addf_apply, broadcast_apply, matmul_rows, truncf_apply]
  unfold pairTerm
  simp only [cos, sin, drop_q, drop_k, Ideal.cos_def, Ideal.sin_def]
  rfl

end Cert.Coherence.Body

end
-- ==== Proof.ArrayValue.lean ====
/-
  From the grid points' blocks to the folded coherence array. Grid point (g, s) — head g of 16, query tile s of 4 —
  stages rows 512·s … 512·s + 511 of head g of the query phases, ALL 2048 rows of head g of the key phases, and writes
  back rows 512·s … 512·s + 511 of head g of the result. What it writes is, entry by entry, the pair term of a query
  row of its first block and a key row of its second (BodyValue), and those rows are rows of the two arrays the region
  finds: so the written block is the block of ONE function of those arrays, their folded coherence. The 64 blocks tile
  the [16,2048,2048] result — index (g, q, k) lies in the block of point (g, q / 512) —, so after the run the array is
  that function.
-/
import proofs.«118761_j90632399880438_1_alg».proof.Proof.Gen.KernelIdeal.Frame
import proofs.«118761_j90632399880438_1_alg».proof.Proof.BodyValue
import Idealize.ShloMosaic.Lib.Pipeline.Value

noncomputable section

namespace Cert.Coherence.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The folded query phases and key phases as the region finds them. -/
abbrev qarr (c : Dev nD) : S16x2048x64.Idx → EReal := V m c main_v0
abbrev karr (c : Dev nD) : S16x2048x64.Idx → EReal := V m c main_v1

/-- The three windows' block indices over the 64 grid points: the query window moves with the result's window on the
    head and tile axes, the key window on the head axis only and sits at tile 0; no window moves along its last axis;
    the result's head index is below 16 and its tile index below 4. -/
theorem index_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 15 ∧ win0_2.index t (1 : Fin 3) ≤ 3 :=
  (by decide +kernel : ∀ t : Fin grid0.N, _)

/-- Every (head, tile) pair is some point's. -/
theorem index_onto : ∀ (g : Fin 16) (s : Fin 4), ∃ t : Fin cfg0.N, win0_2.index t = ![g.val, s.val, 0] :=
  (by decide +kernel : ∀ (g : Fin 16) (s : Fin 4), ∃ t : Fin grid0.N, win0_2.index t = ![g.val, s.val, 0])

/-- The query block at point `t`, entry `x`, is the folded query array at head `g`, row 512·s + x₁, harmonic x₂,
    (g, s) the result window's block index at `t`. -/
theorem qblk_apply (c : Dev nD) (t : Fin cfg0.N) (x : S1x512x64.Idx) (k : S16x2048x64.Idx)
    (hk0 : (k 0).val = win0_2.index t (0 : Fin 3)) (hk1 : (k 1).val = win0_2.index t (1 : Fin 3) * 512 + (x 1).val)
    (hk2 : (k 2).val = (x 2).val) :
    (iblk m c 0 t : Vec Ideal S1x512x64 .f32) x = qarr m c k := by
  obtain ⟨e0, e1, e2, -, -, -, -, -, -⟩ := index_facts t
  have hx0 : (x 0).val < 1 := (x 0).isLt
  unfold iblk
  rw [View.read_apply]
  show V m c main_v0 _ = V m c main_v0 k
  congr 1
  funext a
  apply Fin.ext
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 64 + 1 * (x 2).val = (k 2).val; omega

/-- The key block at point `t`, entry `x`, is the folded key array at head `g`, row x₁, harmonic x₂. -/
theorem kblk_apply (c : Dev nD) (t : Fin cfg0.N) (x : S1x2048x64.Idx) (k : S16x2048x64.Idx)
    (hk0 : (k 0).val = win0_2.index t (0 : Fin 3)) (hk1 : (k 1).val = (x 1).val) (hk2 : (k 2).val = (x 2).val) :
    (iblk m c 1 t : Vec Ideal S1x2048x64 .f32) x = karr m c k := by
  obtain ⟨-, -, -, e0, e1, e2, -, -, -⟩ := index_facts t
  have hx0 : (x 0).val < 1 := (x 0).isLt
  unfold iblk
  rw [View.read_apply]
  show V m c main_v1 _ = V m c main_v1 k
  congr 1
  funext a
  apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 64 + 1 * (x 2).val = (k 2).val; omega

/-- A point's stored entry as an entry of the folded coherence: if the first block's rows are rows 512·s + · of head
    `g` of `Q` and the second block's rows are the rows of head `g` of `K`, entry `y` of what the body stores is the
    folded coherence of `Q` and `K` at (g, 512·s + y₁, y₂). -/
theorem point_value (Q K : S16x2048x64.Idx → EReal) (x0 : Vec Ideal S1x512x64 .f32) (x1 : Vec Ideal S1x2048x64 .f32)
    (g s : ℕ)
    (hq : ∀ (p : Fin 512) (d : Fin 64) (k : S16x2048x64.Idx), (k 0).val = g → (k 1).val = s * 512 + p.val →
      (k 2).val = d.val → x0 (ix3 0 p d) = Q k)
    (hk : ∀ (r : Fin 2048) (d : Fin 64) (k : S16x2048x64.Idx), (k 0).val = g → (k 1).val = r.val →
      (k 2).val = d.val → x1 (ix3 0 r d) = K k)
    (y : S1x512x2048.Idx) (i : S16x2048x2048.Idx)
    (hi0 : (i 0).val = g) (hi1 : (i 1).val = s * 512 + (y 1).val) (hi2 : (i 2).val = (y 2).val) :
    k0_pay1 (F := Ideal) x0 x1 y = coherence3 Q K i := by
  obtain ⟨z, p, r, rfl⟩ : ∃ (z : Fin 1) (p : Fin 512) (r : Fin 2048), y = ix3 z p r := ⟨y 0, y 1, y 2, eq_ix3 y⟩
  rw [Body.pay_apply]
  unfold coherence3
  congr 1
  · funext d; exact hq p d _ hi0 hi1 rfl
  · funext d; exact hk r d _ hi0 hi2 rfl

/-- WHAT POINT `t` WRITES BACK is block `t` of the folded coherence of the two arrays the region finds. -/
theorem flushed_eq (c : Dev nD) (t : Fin cfg0.N) :
    (dats m 0 c).flushed 2 t = ((cfg0.win 2).blk t).view.read (Elt Ideal) (coherence3 (qarr m c) (karr m c)) := by
  show (cfg0.win 2).cut (grid0.coords t) ((dats m 0 c).after 2 t) = _
  rw [after0_2]
  unfold out0_2
  rw [View.canon_unit_zero zero_offsets]
  simp only [View.ld_unit_zero (S := S1x512x64) zero_offsets, View.ld_unit_zero (S := S1x2048x64) zero_offsets]
  obtain ⟨-, -, -, -, -, -, e2, -, -⟩ := index_facts t
  funext j
  show k0_pay1 (F := Ideal) (iblk m c 0 t) (iblk m c 1 t) j
    = coherence3 (qarr m c) (karr m c) (((cfg0.win 2).blk t).view.emb j)
  have hj0 : (j 0).val < 1 := (j 0).isLt
  refine point_value (qarr m c) (karr m c) (iblk m c 0 t) (iblk m c 1 t) (win0_2.index t (0 : Fin 3))
    (win0_2.index t (1 : Fin 3)) (fun p d k h0 h1 h2 => qblk_apply m c t (ix3 0 p d) k h0 h1 h2)
    (fun r d k h0 h1 h2 => kblk_apply m c t (ix3 0 r d) k h0 h1 h2) j _ ?_ ?_ ?_
  · show win0_2.index t (0 : Fin 3) * 1 + 1 * (j 0).val = win0_2.index t (0 : Fin 3); omega
  · show win0_2.index t (1 : Fin 3) * 512 + 1 * (j 1).val = win0_2.index t (1 : Fin 3) * 512 + (j 1).val; omega
  · show win0_2.index t (2 : Fin 3) * 2048 + 1 * (j 2).val = (j 2).val; omega

/-- An index of the result is in point `t`'s block iff each coordinate is in the block's range on its axis. -/
theorem mem_blk (t : Fin cfg0.N) (i : S16x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v2).slice (win0_2.rect t)).set ↔ _
  rw [View.set_slice_whole, Rect.mem_set_unit]
  exact Iff.rfl

/-- Every index of the result is in the block of the point of its head and its row's tile. -/
theorem covered (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE RESULT ARRAY after the run: the folded coherence of the two arrays the region finds. -/
theorem final (c : Dev nD) : (dats m 0 c).arrAt 2 cfg0.N = coherence3 (qarr m c) (karr m c) :=
  (dats m 0 c).arrAt_eq_of_cover 2 (coherence3 (qarr m c) (karr m c)) (fun t _ => flushed_eq m c t) covered

end Cert.Coherence.Blocks

end
-- ==== Proof.KernelRun.lean ====
/-
  The idealized kernel program's run, read. Before the region the two argument arrays are folded, (batch, head) to one
  axis of 16, by row-major reshapes; the region leaves the folded coherence of the folded arrays (ArrayValue); the one
  operation after the region unfolds that result back to (batch, head, query, key). Folding the operands, taking the
  folded coherence and unfolding is the coherence of the arguments themselves (Spec): so the program's result buffer
  ends at the coherence of its two arguments, which end as they were launched.
-/
import proofs.«118761_j90632399880438_1_alg».proof.Proof.ArrayValue
import Idealize.ShloMosaic.Lib.StableHlo.Run

noncomputable section

namespace Cert.Coherence.KernelRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The query phases the region finds are the first argument, folded. -/
theorem qarr_eq (c : Dev nD) :
    Blocks.qarr m c = shapeCast S16x2048x64 (m ((c : Thread nD τ).loc main_arg0)) shapeCasts_S2x8x2048x64_S16x2048x64 := by
  show StableHlo.after hostOps0 (fun b => m (c, b)) (Proc.devRef .tc main_v0) = _
  after_results
  rfl

/-- The key phases the region finds are the second argument, folded. -/
theorem karr_eq (c : Dev nD) :
    Blocks.karr m c = shapeCast S16x2048x64 (m ((c : Thread nD τ).loc main_arg1)) shapeCasts_S2x8x2048x64_S16x2048x64 := by
  show StableHlo.after hostOps0 (fun b => m (c, b)) (Proc.devRef .tc main_v1) = _
  after_results
  rfl

/-- What the operation after the region leaves in the result buffer: the coherence of the two arguments. -/
theorem tail_value (c : Dev nD) :
    Pipeline.afterTail₀ cfgs (dats m) 0 (V0 m) [hostOps1] c main_v3
      = coherence4 (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, Blocks.final, qarr_eq, karr_eq]
  exact unfold_coherence3 _ _ _ _

/-- Every weakly fair execution of the idealized kernel program terminates with the result buffer at the coherence of
    the two arguments and the arguments as launched. -/
theorem run : θ_run defs (onTc (τ := τ) (main (F := Ideal))) ⟨m, fun _ => 0, ρ⟩ fun r => ∀ c : Dev nD,
      r.2.mem ((c : Thread nD τ).loc main_v3)
        = coherence4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Coherence.KernelRun

end
-- ==== Proof.lean ====
/-
  The certificate of the pairwise phase-coherence kernel against its jnp reference, over the extended reals.

  Both programs take query phases and key phases indexed (batch, head, position, harmonic) and return, at
  (b, h, q, k), the mean over the 64 harmonics of cos (φ_q − φ_k) written through the addition formula:
    (Σ_d cos Q[b,h,q,d] · cos K[b,h,k,d]  +  Σ_d sin Q[b,h,q,d] · sin K[b,h,k,d]) / 64.
  The reference computes the two sums as batched contractions over the harmonic axis, adds them, and divides by 64 and
  then by 1. The kernel folds (batch, head) into one axis of 16, and on a grid of 16 heads × 4 query tiles multiplies
  the tile's cosines and sines against all of the head's key cosines and sines on the matrix unit, adds the two
  products, scales by 2⁻⁶ and writes the tile's rows; the result is unfolded afterwards. On the extended reals the
  narrowing of the factors to bf16 is the identity, a contraction is a finite sum whatever its blocking, 2⁻⁶ is the
  rational 1/64 exactly, and a quotient by a nonzero real is the product with its reciprocal at the infinities too:
  the two results are one function of the arguments (`Coherence.coherence4`), with no use of the inputs' finiteness.

  Spec states that function; RefSide shows the reference's last stage is it; BodyValue reads what one grid point stores;
  ArrayValue assembles the points' blocks into the folded result; KernelRun carries it through the reshapes around the
  region. The frames of the two kernel programs are their generated frame runs, the reference's is its generated run,
  and the idealization rewrote nothing, so it preserves trivially.
-/
import proofs.«118761_j90632399880438_1_alg».proof.Defs
import proofs.«118761_j90632399880438_1_alg».proof.Proof.Gen.Kernel
import proofs.«118761_j90632399880438_1_alg».proof.Proof.Gen.Kernel.Skeleton
import proofs.«118761_j90632399880438_1_alg».proof.Proof.Gen.Kernel.Launch
import proofs.«118761_j90632399880438_1_alg».proof.Proof.Gen.Kernel.Points
import proofs.«118761_j90632399880438_1_alg».proof.Proof.Gen.Kernel.Frame
import proofs.«118761_j90632399880438_1_alg».proof.Proof.Gen.KernelIdeal
import proofs.«118761_j90632399880438_1_alg».proof.Proof.Gen.KernelIdeal.Skeleton
import proofs.«118761_j90632399880438_1_alg».proof.Proof.Gen.KernelIdeal.Launch
import proofs.«118761_j90632399880438_1_alg».proof.Proof.Gen.KernelIdeal.Points
import proofs.«118761_j90632399880438_1_alg».proof.Proof.Gen.KernelIdeal.Frame
import proofs.«118761_j90632399880438_1_alg».proof.Proof.Gen.ReferenceIdeal
import proofs.«118761_j90632399880438_1_alg».proof.Proof.Gen.Pre_finite_inputs
import proofs.«118761_j90632399880438_1_alg».proof.Proof.Gen.ReferenceIdeal.Run
import proofs.«118761_j90632399880438_1_alg».proof.Proof.Gen.ReferenceIdeal.Read
import proofs.«118761_j90632399880438_1_alg».proof.Proof.RefSide
import proofs.«118761_j90632399880438_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the coherence of the arguments in their
    result buffers: the kernel program by its run read through the region and the reshapes, the reference by its run,
    whose last stage is that function. -/
theorem algebraic : Cert.algebraic_KernelIdeal_ReferenceIdeal := by
  intro m ρ m' ρ' _ hagree
  refine ⟨fun c => Cert.Coherence.coherence4 (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Coherence.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.Coherence.RefSide.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
